-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S1x64x1x1 : Shape := ⟨4, ![1, 64, 1, 1]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S1x64x1x1 : S_.BroadcastsInDim S1x64x1x1 (![] : Fin 0 → Fin S1x64x1x1.rank)
  reducesTo_S1x64x1x1_S_d0_1_2_3 : S1x64x1x1.ReducesTo [0, 1, 2, 3] S_

variable [Facts]

def fn {F : FTy → Type} [FloatOps F] (main_arg0 : FVec F S8x64x256x256 .f32) (main_arg1 : FVec F S1x64x1x1 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S1x64x1x1 .f32 := Host.absf main_arg1
  let main_cst_0 : FVec F S_ .f32 := constant S_ .f32 0x7F800000#32
  let main_v5 : FVec F S1x64x1x1 .f32 := broadcastInDim S1x64x1x1 ![] bcast_S_S1x64x1x1 main_cst_0
  let main_v6 : IVec S1x64x1x1 1 := cmpf .olt main_v4 main_v5
  let main_c_1 : IVec S_ 1 := constantI S_ 1 1#1
  let main_v7 : IVec S_ 1 := (fun x v => Host.reduce IntOp.andi x v reducesTo_S1x64x1x1_S_d0_1_2_3 h_S_) main_v6 main_c_1
  let main_v8 : IVec S_ 1 := andi main_v3 main_v7
  main_v8
-- ==== Kernel.lean ====
abbrev S8x64x256x256 : Shape := ⟨4, ![8, 64, 256, 256]⟩
abbrev S1x64x1x1 : Shape := ⟨4, ![1, 64, 1, 1]⟩
abbrev S1x8x256x256 : Shape := ⟨4, ![1, 8, 256, 256]⟩
abbrev S1x8x1x1 : Shape := ⟨4, ![1, 8, 1, 1]⟩
abbrev S1x8x1x256 : Shape := ⟨4, ![1, 8, 1, 256]⟩
abbrev S1x8x257x256 : Shape := ⟨4, ![1, 8, 257, 256]⟩
abbrev S1x8x258x256 : Shape := ⟨4, ![1, 8, 258, 256]⟩
abbrev S1x8x258x1 : Shape := ⟨4, ![1, 8, 258, 1]⟩
abbrev S1x8x258x257 : Shape := ⟨4, ![1, 8, 258, 257]⟩
abbrev S1x8x258x258 : Shape := ⟨4, ![1, 8, 258, 258]⟩

abbrev nBuf : Space → Nat
  | .hbm => 3
  | .vmem => 6
  | .smem => 0
  | _ => 0

abbrev bufTy : (tb : Table) → Fin (tcTables nBuf tb) → BufTy
  | .hbm, ⟨0, _⟩ => ⟨S8x64x256x256, .f32⟩
  | .hbm, ⟨1, _⟩ => ⟨S1x64x1x1, .f32⟩
  | .hbm, ⟨2, _⟩ => ⟨S8x64x256x256, .f32⟩
  | .local _ .vmem, ⟨0, _⟩ => ⟨S1x8x256x256, .f32⟩
  | .local _ .vmem, ⟨1, _⟩ => ⟨S1x8x256x256, .f32⟩
  | .local _ .vmem, ⟨2, _⟩ => ⟨S1x8x1x1, .f32⟩
  | .local _ .vmem, ⟨3, _⟩ => ⟨S1x8x1x1, .f32⟩
  | .local _ .vmem, ⟨4, _⟩ => ⟨S1x8x256x256, .f32⟩
  | .local _ .vmem, ⟨5, _⟩ => ⟨S1x8x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x8x256x256_S1x8x256x256_0_0_0_0 : ∀ a, (![0, 0, 0, 0] : Fin 4 → Nat) a + S1x8x256x256.size a ≤ S1x8x256x256.size a
  h_S1x8x256x256 : 0 < S1x8x256x256.numel
  concatenates_S1x8x1x256_S1x8x256x256_S1x8x257x256_d2 : Shape.Concatenates [S1x8x1x256, S1x8x256x256] S1x8x257x256 2
  concatenates_S1x8x257x256_S1x8x1x256_S1x8x258x256_d2 : Shape.Concatenates [S1x8x257x256, S1x8x1x256] S1x8x258x256 2
  concatenates_S1x8x258x1_S1x8x258x256_S1x8x258x257_d3 : Shape.Concatenates [S1x8x258x1, S1x8x258x256] S1x8x258x257 3
  concatenates_S1x8x258x257_S1x8x258x1_S1x8x258x258_d3 : Shape.Concatenates [S1x8x258x257, S1x8x258x1] S1x8x258x258 3
  slices_S1x8x258x258_o0_0_0_0_S1x8x256x256 : S1x8x258x258.Slices ![0, 0, 0, 0] S1x8x256x256
  slices_S1x8x258x258_o0_0_0_1_S1x8x256x256 : S1x8x258x258.Slices ![0, 0, 0, 1] S1x8x256x256
  slices_S1x8x258x258_o0_0_0_2_S1x8x256x256 : S1x8x258x258.Slices ![0, 0, 0, 2] S1x8x256x256
  slices_S1x8x258x258_o0_0_1_0_S1x8x256x256 : S1x8x258x258.Slices ![0, 0, 1, 0] S1x8x256x256
  slices_S1x8x258x258_o0_0_1_1_S1x8x256x256 : S1x8x258x258.Slices ![0, 0, 1, 1] S1x8x256x256
  slices_S1x8x258x258_o0_0_1_2_S1x8x256x256 : S1x8x258x258.Slices ![0, 0, 1, 2] S1x8x256x256
  slices_S1x8x258x258_o0_0_2_0_S1x8x256x256 : S1x8x258x258.Slices ![0, 0, 2, 0] S1x8x256x256
  slices_S1x8x258x258_o0_0_2_1_S1x8x256x256 : S1x8x258x258.Slices ![0, 0, 2, 1] S1x8x256x256
  slices_S1x8x258x258_o0_0_2_2_S1x8x256x256 : S1x8x258x258.Slices ![0, 0, 2, 2] S1x8x256x256
  inb_S1x8x1x1_S1x8x1x1_0_0_0_0 : ∀ a, (![0, 0, 0, 0] : Fin 4 → Nat) a + S1x8x1x1.size a ≤ S1x8x1x1.size a
  h_S1x8x1x1 : 0 < S1x8x1x1.numel
  broadcasts_S1x8x1x1_S1x8x256x256 : S1x8x1x1.Broadcasts S1x8x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x256.size a ≤ S8x64x256x256.size a
  hwx0_0 : ∀ i : grid0.Coords, EltTy.bits .f32 = 32 ∨ (Rect.block (s := S8x64x256x256) S1x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1x1.size a ≤ S1x64x1x1.size a
  hwx0_1 : ∀ i : grid0.Coords, EltTy.bits .f32 = 32 ∨ (Rect.block (s := S1x64x1x1) S1x8x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256x256.size a ≤ S8x64x256x256.size a
  hwx0_2 : ∀ i : grid0.Coords, EltTy.bits .f32 = 32 ∨ (Rect.block (s := S8x64x256x256) S1x8x256x256.size (cc0_transform_2 i) (hinb0_2 i)).WholeWords (EltTy.packing .f32)

variable [Facts₀]

abbrev win0_0 : Pipeline.Window sig grid0 :=
  Pipeline.Window.ofSpec (Memref.whole main_arg0) S1x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S1x64x1x1 : Shape := ⟨4, ![1, 64, 1, 1]⟩
abbrev S_ : Shape := ⟨0, ![]⟩
abbrev S8x64x258x258 : Shape := ⟨4, ![8, 64, 258, 258]⟩

abbrev nBuf : Space → Nat
  | .hbm => 46
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S1x64x1x1, .f32⟩
  | .hbm, ⟨2, _⟩ => ⟨S_, .i32⟩
  | .hbm, ⟨3, _⟩ => ⟨S_, .f32⟩
  | .hbm, ⟨4, _⟩ => ⟨S8x64x258x258, .f32⟩
  | .hbm, ⟨5, _⟩ => ⟨S_, .f32⟩
  | .hbm, ⟨6, _⟩ => ⟨S8x64x256x256, .f32⟩
  | .hbm, ⟨7, _⟩ => ⟨S8x64x256x256, .f32⟩
  | .hbm, ⟨8, _⟩ => ⟨S8x64x256x256, .f32⟩
  | .hbm, ⟨9, _⟩ => ⟨S8x64x256x256, .f32⟩
  | .hbm, ⟨10, _⟩ => ⟨S8x64x256x256, .f32⟩
  | .hbm, ⟨11, _⟩ => ⟨S8x64x256x256, .f32⟩
  | .hbm, ⟨12, _⟩ => ⟨S8x64x256x256, .f32⟩
  | .hbm, ⟨13, _⟩ => ⟨S8x64x256x256, .f32⟩
  | .hbm, ⟨14, _⟩ => ⟨S8x64x256x256, .f32⟩
  | .hbm, ⟨15, _⟩ => ⟨S8x64x256x256, .f32⟩
  | .hbm, ⟨16, _⟩ => ⟨S8x64x256x256, .f32⟩
  | .hbm, ⟨17, _⟩ => ⟨S8x64x256x256, .f32⟩
  | .hbm, ⟨18, _⟩ => ⟨S8x64x256x256, .f32⟩
  | .hbm, ⟨19, _⟩ => ⟨S8x64x256x256, .f32⟩
  | .hbm, ⟨20, _⟩ => ⟨S8x64x256x256, .f32⟩
  | .hbm, ⟨21, _⟩ => ⟨S8x64x256x256, .f32⟩
  | .hbm, ⟨22, _⟩ => ⟨S8x64x256x256, .f32⟩
  | .hbm, ⟨23, _⟩ => ⟨S8x64x256x256, .f32⟩
  | .hbm, ⟨24, _⟩ => ⟨S8x64x256x256, .f32⟩
  | .hbm, ⟨25, _⟩ => ⟨S8x64x256x256, .f32⟩
  | .hbm, ⟨26, _⟩ => ⟨S8x64x256x256, .f32⟩
  | .hbm, ⟨27, _⟩ => ⟨S8x64x256x256, .f32⟩
  | .hbm, ⟨28, _⟩ => ⟨S8x64x256x256, .f32⟩
  | .hbm, ⟨29, _⟩ => ⟨S8x64x256x256, .f32⟩
  | .hbm, ⟨30, _⟩ => ⟨S8x64x256x256, .f32⟩
  | .hbm, ⟨31, _⟩ => ⟨S8x64x256x256, .f32⟩
  | .hbm, ⟨32, _⟩ => ⟨S8x64x256x256, .f32⟩
  | .hbm, ⟨33, _⟩ => ⟨S8x64x256x256, .f32⟩
  | .hbm, ⟨34, _⟩ => ⟨S8x64x256x256, .f32⟩
  | .hbm, ⟨35, _⟩ => ⟨S8x64x256x256, .f32⟩
  | .hbm, ⟨36, _⟩ => ⟨S8x64x256x256, .f32⟩
  | .hbm, ⟨37, _⟩ => ⟨S8x64x256x256, .f32⟩
  | .hbm, ⟨38, _⟩ => ⟨S8x64x256x256, .f32⟩
  | .hbm, ⟨39, _⟩ => ⟨S8x64x256x256, .f32⟩
  | .hbm, ⟨40, _⟩ => ⟨S8x64x256x256, .f32⟩
  | .hbm, ⟨41, _⟩ => ⟨S8x64x256x256, .f32⟩
  | .hbm, ⟨42, _⟩ => ⟨S8x64x256x256, .f32⟩
  | .hbm, ⟨43, _⟩ => ⟨S8x64x256x256, .f32⟩
  | .hbm, ⟨44, _⟩ => ⟨S8x64x256x256, .f32⟩
  | .hbm, ⟨45, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]

class Facts₀ : Prop where
  pads_S8x64x256x256_S8x64x258x258_000_000_110_110 : S8x64x256x256.Pads (![0, 0, 1, 1] : Fin 4 → Nat) ![0, 0, 1, 1] ![0, 0, 0, 0] S8x64x258x258
  h_S_ : 0 < S_.numel
  bcast_S_S8x64x256x256 : S_.BroadcastsInDim S8x64x256x256 (![] : Fin 0 → Fin S8x64x256x256.rank)
  slices_S8x64x258x258_S8x64x256x256_0_0_0_0 : S8x64x258x258.Slices ![0, 0, 0, 0] S8x64x256x256
  slices_S8x64x258x258_S8x64x256x256_0_0_0_1 : S8x64x258x258.Slices ![0, 0, 0, 1] S8x64x256x256
  slices_S8x64x258x258_S8x64x256x256_0_0_0_2 : S8x64x258x258.Slices ![0, 0, 0, 2] S8x64x256x256
  slices_S8x64x258x258_S8x64x256x256_0_0_1_0 : S8x64x258x258.Slices ![0, 0, 1, 0] S8x64x256x256
  slices_S8x64x258x258_S8x64x256x256_0_0_1_1 : S8x64x258x258.Slices ![0, 0, 1, 1] S8x64x256x256
  slices_S8x64x258x258_S8x64x256x256_0_0_1_2 : S8x64x258x258.Slices ![0, 0, 1, 2] S8x64x256x256
  slices_S8x64x258x258_S8x64x256x256_0_0_2_0 : S8x64x258x258.Slices ![0, 0, 2, 0] S8x64x256x256
  slices_S8x64x258x258_S8x64x256x256_0_0_2_1 : S8x64x258x258.Slices ![0, 0, 2, 1] S8x64x256x256
  slices_S8x64x258x258_S8x64x256x256_0_0_2_2 : S8x64x258x258.Slices ![0, 0, 2, 2] S8x64x256x256
  bcast_S1x64x1x1_S8x64x256x256_0_1_2_3 : S1x64x1x1.BroadcastsInDim S8x64x256x256 (![0, 1, 2, 3] : Fin 4 → Fin S8x64x256x256.rank)

variable [Facts₀]

class Facts : Prop extends Facts₀ where

variable [Facts]
-- ==== Proof.PaddedPlane.lean ====
/-
  A plane of 256 × 256 entries with a border of one padding entry on every side, read at a position of the
  258 × 258 padded plane; the sum, in a fixed order, of the nine distances between an entry and the padded
  plane's entries around it; and the two ways a program lays the padded plane out — by joining a padding row
  above and below and a padding column left and right of a block, or by padding an array in one step —, each read
  at an index as that plane. Both programs of this certificate compute, at every position (h, w) of every plane,

      x(h, w) + α · ((((0 + |x(h, w) − P(h, w)|) + |x(h, w) − P(h, w + 1)|) + …) + |x(h, w) − P(h + 2, w + 2)|),

  P the padded plane, the nine terms in row-major order of the offsets. Nothing here names a program.
-/
import Idealize.ShloMosaic.Lib.KernelVsHost

noncomputable section

namespace Cert.PaddedPlane

open Idealize.ShloMosaic Idealize.ShloMosaic.ValueIdx

/-! ## The padded plane at a position -/

section Plane
variable {α : Type}

/-- Position `(i, j)` of the padded plane: entry `(i − 1, j − 1)` of the plane `f` when both coordinates are
    inside, the padding value `z` on the border. -/
def halo (z : α) (f : Fin 256 → Fin 256 → α) (i j : Nat) : α :=
  if hj : 1 ≤ j ∧ j ≤ 256 then
    if hi : 1 ≤ i ∧ i ≤ 256 then f ⟨i - 1, by omega⟩ ⟨j - 1, by omega⟩ else z
  else z

end Plane

/-! ## Nine distances around an entry -/

section Sum
variable {F : FTy → Type} [FloatOps F]

/-- One term: the distance `ab (c − p)` between the centre `c` and a neighbour `p`, `ab` the absolute value. -/
def diffTerm (ab : F .f32 → F .f32) (c p : F .f32) : F .f32 := ab (FloatOps.subf c p)

/-- The nine terms around position `(h, w)` of the plane `f`, added in row-major order of the offsets onto `z0`. -/
def sum9 (ab : F .f32 → F .f32) (z z0 : F .f32) (f : Fin 256 → Fin 256 → F .f32) (h w : Fin 256) : F .f32 :=
  FloatOps.addf (FloatOps.addf (FloatOps.addf (FloatOps.addf (FloatOps.addf (FloatOps.addf (FloatOps.addf (FloatOps.addf (FloatOps.addf z0
    (diffTerm ab (f h w) (halo z f (0 + h.val) (0 + w.val))))
    (diffTerm ab (f h w) (halo z f (0 + h.val) (1 + w.val))))
    (diffTerm ab (f h w) (halo z f (0 + h.val) (2 + w.val))))
    (diffTerm ab (f h w) (halo z f (1 + h.val) (0 + w.val))))
    (diffTerm ab (f h w) (halo z f (1 + h.val) (1 + w.val))))
    (diffTerm ab (f h w) (halo z f (1 + h.val) (2 + w.val))))
    (diffTerm ab (f h w) (halo z f (2 + h.val) (0 + w.val))))
    (diffTerm ab (f h w) (halo z f (2 + h.val) (1 + w.val))))
    (diffTerm ab (f h w) (halo z f (2 + h.val) (2 + w.val)))

/-- The result at position `(h, w)` of the plane `f` scaled by `al`: the entry plus `al` times its nine distances. -/
def cell (ab : F .f32 → F .f32) (z z0 : F .f32) (f : Fin 256 → Fin 256 → F .f32) (al : F .f32) (h w : Fin 256) : F .f32 :=
  FloatOps.addf (f h w) (FloatOps.mulf al (sum9 ab z z0 f h w))

/-- The same sum over whole vectors: nine shifted copies `s··` of `x`, the distances added in order onto `zv`. -/
def acc9 {S : Shape} (ab : F .f32 → F .f32) (x zv s00 s01 s02 s10 s11 s12 s20 s21 s22 : S.Idx → F .f32) : S.Idx → F .f32 :=
  fun y => FloatOps.addf (FloatOps.addf (FloatOps.addf (FloatOps.addf (FloatOps.addf (FloatOps.addf (FloatOps.addf (FloatOps.addf (FloatOps.addf (zv y)
    (diffTerm ab (x y) (s00 y))) (diffTerm ab (x y) (s01 y))) (diffTerm ab (x y) (s02 y)))
    (diffTerm ab (x y) (s10 y))) (diffTerm ab (x y) (s11 y))) (diffTerm ab (x y) (s12 y)))
    (diffTerm ab (x y) (s20 y))) (diffTerm ab (x y) (s21 y))) (diffTerm ab (x y) (s22 y))

/-- At an index where `x` is the plane's entry `(h, w)` and shifted copy `(di, dj)` is the padded plane's position
    `(di + h, dj + w)`, the vectors' sum is the nine distances around `(h, w)`. -/
theorem acc9_apply {S : Shape} (ab : F .f32 → F .f32) (x zv s00 s01 s02 s10 s11 s12 s20 s21 s22 : S.Idx → F .f32) (y : S.Idx)
    (z z0 : F .f32) (f : Fin 256 → Fin 256 → F .f32) (h w : Fin 256) (hx : x y = f h w) (hz : zv y = z0)
    (h00 : s00 y = halo z f (0 + h.val) (0 + w.val)) (h01 : s01 y = halo z f (0 + h.val) (1 + w.val))
    (h02 : s02 y = halo z f (0 + h.val) (2 + w.val)) (h10 : s10 y = halo z f (1 + h.val) (0 + w.val))
    (h11 : s11 y = halo z f (1 + h.val) (1 + w.val)) (h12 : s12 y = halo z f (1 + h.val) (2 + w.val))
    (h20 : s20 y = halo z f (2 + h.val) (0 + w.val)) (h21 : s21 y = halo z f (2 + h.val) (1 + w.val))
    (h22 : s22 y = halo z f (2 + h.val) (2 + w.val)) :
    acc9 ab x zv s00 s01 s02 s10 s11 s12 s20 s21 s22 y = sum9 ab z z0 f h w := by
  unfold acc9 sum9
  rw [hx, hz, h00, h01, h02, h10, h11, h12, h20, h21, h22]

/-- Two results agree when their planes, scales and positions do. -/
theorem cell_congr (ab : F .f32 → F .f32) (z z0 : F .f32) {f f' : Fin 256 → Fin 256 → F .f32} {al al' : F .f32} {h h' w w' : Fin 256}
    (hf : f = f') (hal : al = al') (hh : h = h') (hw : w = w') : cell ab z z0 f al h w = cell ab z z0 f' al' h' w' := by
  subst hf hal hh hw; rfl

/-- THE WHOLE RESULT as one function of the two argument arrays: at `(b, c, h, w)` the result at position `(h, w)` of
    plane `(b, c)` of the first array, scaled by entry `(0, c, 0, 0)` of the second. -/
def stencilArr (ab : F .f32 → F .f32) (z z0 : F .f32) (xa : (⟨4, ![8, 64, 256, 256]⟩ : Shape).Idx → F .f32)
    (al : (⟨4, ![1, 64, 1, 1]⟩ : Shape).Idx → F .f32) : (⟨4, ![8, 64, 256, 256]⟩ : Shape).Idx → F .f32 :=
  fun i => cell ab z z0 (fun p q => xa (ix4 (i 0) (i 1) p q)) (al (ix4 (0 : Fin 1) (i 1) (0 : Fin 1) (0 : Fin 1))) (i 2) (i 3)

end Sum

/-! ## A block of eight planes padded by joining rows and columns -/

section Block
variable {α : Type}

abbrev Blk : Shape := ⟨4, ![1, 8, 256, 256]⟩
abbrev Row1 : Shape := ⟨4, ![1, 8, 1, 256]⟩
abbrev Rows257 : Shape := ⟨4, ![1, 8, 257, 256]⟩
abbrev Rows258 : Shape := ⟨4, ![1, 8, 258, 256]⟩
abbrev Col1 : Shape := ⟨4, ![1, 8, 258, 1]⟩
abbrev Cols257 : Shape := ⟨4, ![1, 8, 258, 257]⟩
abbrev Padded : Shape := ⟨4, ![1, 8, 258, 258]⟩

/-- A padding row joined above and below: row `i` of the result is row `i − 1` of the block for `1 ≤ i ≤ 256`,
    padding for `i = 0` and `i = 257`. -/
theorem rows_apply (z : α) (x0 : Blk.Idx → α)
    (h1 : Shape.Concatenates [Row1, Blk] Rows257 2) (h2 : Shape.Concatenates [Rows257, Row1] Rows258 2)
    (a : Fin 1) (c : Fin 8) (i : Fin 258) (q : Fin 256) :
    concatenate Rows258 2 [⟨Rows257, concatenate Rows257 2 [⟨Row1, broadcast Row1 z⟩, ⟨Blk, x0⟩] h1⟩, ⟨Row1, broadcast Row1 z⟩] h2 (ix4 a c i q)
      = if hi : 1 ≤ i.val ∧ i.val ≤ 256 then x0 (ix4 a c ⟨i.val - 1, by omega⟩ q) else z := by
  by_cases hi : 1 ≤ i.val ∧ i.val ≤ 256
  · rw [dif_pos hi]
    -- above the lower padding row: the first piece, at the same coordinates
    refine (concatenate_pair_apply_left 2 _ _ h2 (ix4 a c i q) rfl (ix4 a c (⟨i.val, by omega⟩ : Fin 257) q) (fun b => ?_)).trans ?_
    · match b with
      | ⟨0, _⟩ => rfl
      | ⟨1, _⟩ => rfl
      | ⟨2, _⟩ => rfl
      | ⟨3, _⟩ => rfl
    -- below the upper padding row: the second piece, one row up
    refine concatenate_pair_apply_right 2 _ _ h1 _ rfl rfl (ix4 a c (⟨i.val - 1, by omega⟩ : Fin 256) q) (fun b hb => ?_) ?_
    · match b with
      | ⟨0, _⟩ => rfl
      | ⟨1, _⟩ => rfl
      | ⟨2, _⟩ => exact absurd rfl hb
      | ⟨3, _⟩ => rfl
    · show (i.val - 1) + 1 = i.val; omega
  · rw [dif_neg hi]
    by_cases h0 : i.val = 0
    · -- the upper padding row
      refine (concatenate_pair_apply_left 2 _ _ h2 (ix4 a c i q) rfl (ix4 a c (⟨i.val, by omega⟩ : Fin 257) q) (fun b => ?_)).trans ?_
      · match b with
        | ⟨0, _⟩ => rfl
        | ⟨1, _⟩ => rfl
        | ⟨2, _⟩ => rfl
        | ⟨3, _⟩ => rfl
      refine concatenate_pair_apply_left 2 _ _ h1 _ rfl (ix4 a c (⟨0, by omega⟩ : Fin 1) q) (fun b => ?_)
      match b with
      | ⟨0, _⟩ => rfl
      | ⟨1, _⟩ => rfl
      | ⟨2, _⟩ => exact h0.symm
      | ⟨3, _⟩ => rfl
    · -- the lower padding row
      refine concatenate_pair_apply_right 2 _ _ h2 (ix4 a c i q) rfl rfl (ix4 a c (⟨0, by omega⟩ : Fin 1) q) (fun b hb => ?_) ?_
      · match b with
        | ⟨0, _⟩ => rfl
        | ⟨1, _⟩ => rfl
        | ⟨2, _⟩ => exact absurd rfl hb
        | ⟨3, _⟩ => rfl
      · show 0 + 257 = i.val; have := i.isLt; omega

/-- A padding column joined left and right: column `j` of the result is column `j − 1` of the operand for
    `1 ≤ j ≤ 256`, padding for `j = 0` and `j = 257`. -/
theorem cols_apply (z : α) (v : Rows258.Idx → α)
    (h3 : Shape.Concatenates [Col1, Rows258] Cols257 3) (h4 : Shape.Concatenates [Cols257, Col1] Padded 3)
    (a : Fin 1) (c : Fin 8) (i : Fin 258) (j : Fin 258) :
    concatenate Padded 3 [⟨Cols257, concatenate Cols257 3 [⟨Col1, broadcast Col1 z⟩, ⟨Rows258, v⟩] h3⟩, ⟨Col1, broadcast Col1 z⟩] h4 (ix4 a c i j)
      = if hj : 1 ≤ j.val ∧ j.val ≤ 256 then v (ix4 a c i ⟨j.val - 1, by omega⟩) else z := by
  by_cases hj : 1 ≤ j.val ∧ j.val ≤ 256
  · rw [dif_pos hj]
    refine (concatenate_pair_apply_left 3 _ _ h4 (ix4 a c i j) rfl (ix4 a c i (⟨j.val, by omega⟩ : Fin 257)) (fun b => ?_)).trans ?_
    · match b with
      | ⟨0, _⟩ => rfl
      | ⟨1, _⟩ => rfl
      | ⟨2, _⟩ => rfl
      | ⟨3, _⟩ => rfl
    refine concatenate_pair_apply_right 3 _ _ h3 _ rfl rfl (ix4 a c i (⟨j.val - 1, by omega⟩ : Fin 256)) (fun b hb => ?_) ?_
    · match b with
      | ⟨0, _⟩ => rfl
      | ⟨1, _⟩ => rfl
      | ⟨2, _⟩ => rfl
      | ⟨3, _⟩ => exact absurd rfl hb
    · show (j.val - 1) + 1 = j.val; omega
  · rw [dif_neg hj]
    by_cases h0 : j.val = 0
    · refine (concatenate_pair_apply_left 3 _ _ h4 (ix4 a c i j) rfl (ix4 a c i (⟨j.val, by omega⟩ : Fin 257)) (fun b => ?_)).trans ?_
      · match b with
        | ⟨0, _⟩ => rfl
        | ⟨1, _⟩ => rfl
        | ⟨2, _⟩ => rfl
        | ⟨3, _⟩ => rfl
      refine concatenate_pair_apply_left 3 _ _ h3 _ rfl (ix4 a c i (⟨0, by omega⟩ : Fin 1)) (fun b => ?_)
      match b with
      | ⟨0, _⟩ => rfl
      | ⟨1, _⟩ => rfl
      | ⟨2, _⟩ => rfl
      | ⟨3, _⟩ => exact h0.symm
    · refine concatenate_pair_apply_right 3 _ _ h4 (ix4 a c i j) rfl rfl (ix4 a c i (⟨0, by omega⟩ : Fin 1)) (fun b hb => ?_) ?_
      · match b with
        | ⟨0, _⟩ => rfl
        | ⟨1, _⟩ => rfl
        | ⟨2, _⟩ => rfl
        | ⟨3, _⟩ => exact absurd rfl hb
      · show 0 + 257 = j.val; have := j.isLt; omega

/-- The block padded on all four sides, read at `(a, c, i, j)`, is the padded plane `(a, c)` of the block at `(i, j)`. -/
theorem padded_apply (z : α) (x0 : Blk.Idx → α)
    (h1 : Shape.Concatenates [Row1, Blk] Rows257 2) (h2 : Shape.Concatenates [Rows257, Row1] Rows258 2)
    (h3 : Shape.Concatenates [Col1, Rows258] Cols257 3) (h4 : Shape.Concatenates [Cols257, Col1] Padded 3)
    (a : Fin 1) (c : Fin 8) (i : Fin 258) (j : Fin 258) :
    concatenate Padded 3 [⟨Cols257, concatenate Cols257 3 [⟨Col1, broadcast Col1 z⟩,
        ⟨Rows258, concatenate Rows258 2 [⟨Rows257, concatenate Rows257 2 [⟨Row1, broadcast Row1 z⟩, ⟨Blk, x0⟩] h1⟩, ⟨Row1, broadcast Row1 z⟩] h2⟩] h3⟩,
        ⟨Col1, broadcast Col1 z⟩] h4 (ix4 a c i j)
      = halo z (fun p q => x0 (ix4 a c p q)) i.val j.val := by
  refine (cols_apply z _ h3 h4 a c i j).trans ?_
  unfold halo
  by_cases hj : 1 ≤ j.val ∧ j.val ≤ 256
  · rw [dif_pos hj, dif_pos hj]
    exact rows_apply z x0 h1 h2 a c i _
  · rw [dif_neg hj, dif_neg hj]

/-- A 256 × 256 window of the padded block at offset `(di, dj)`, read at `(a, c, h, w)`: the padded plane at
    `(di + h, dj + w)`. -/
theorem slice_padded_apply (z : α) (x0 : Blk.Idx → α)
    (h1 : Shape.Concatenates [Row1, Blk] Rows257 2) (h2 : Shape.Concatenates [Rows257, Row1] Rows258 2)
    (h3 : Shape.Concatenates [Col1, Rows258] Cols257 3) (h4 : Shape.Concatenates [Cols257, Col1] Padded 3)
    (di dj : Nat) (hdi : di ≤ 2) (hdj : dj ≤ 2) (hs : Padded.Slices ![0, 0, di, dj] Blk)
    (a : Fin 1) (c : Fin 8) (h w : Fin 256) :
    extractStridedSlice Blk ![0, 0, di, dj]
      (concatenate Padded 3 [⟨Cols257, concatenate Cols257 3 [⟨Col1, broadcast Col1 z⟩,
        ⟨Rows258, concatenate Rows258 2 [⟨Rows257, concatenate Rows257 2 [⟨Row1, broadcast Row1 z⟩, ⟨Blk, x0⟩] h1⟩, ⟨Row1, broadcast Row1 z⟩] h2⟩] h3⟩,
        ⟨Col1, broadcast Col1 z⟩] h4) hs (ix4 a c h w)
      = halo z (fun p q => x0 (ix4 a c p q)) (di + h.val) (dj + w.val) :=
  (extractStridedSlice_apply _ _ hs (ix4 a c h w) (ix4 a c (⟨di + h.val, by omega⟩ : Fin 258) (⟨dj + w.val, by omega⟩ : Fin 258))
    (fun b => match b with
      | ⟨0, _⟩ => by show a.val = 0 + a.val; omega
      | ⟨1, _⟩ => by show c.val = 0 + c.val; omega
      | ⟨2, _⟩ => rfl
      | ⟨3, _⟩ => rfl)).trans
    (padded_apply z x0 h1 h2 h3 h4 a c _ _)

end Block

/-! ## An array of 8 × 64 planes padded in one step -/

section Array
variable {α : Type}

abbrev Arr : Shape := ⟨4, ![8, 64, 256, 256]⟩
abbrev ArrPadded : Shape := ⟨4, ![8, 64, 258, 258]⟩

/-- The array padded by one entry on each side of its two last axes, read at `(b, c, i, j)`, is the padded plane
    `(b, c)` of the array at `(i, j)`, the padding value the scalar operand's one entry. -/
theorem pad_apply {u : Shape} (x : Arr.Idx → α) (v : u.Idx → α)
    (hp : Arr.Pads (![0, 0, 1, 1] : Fin 4 → Nat) ![0, 0, 1, 1] ![0, 0, 0, 0] ArrPadded) (hu : 0 < u.numel)
    (b : Fin 8) (c : Fin 64) (i j : Fin 258) :
    pad ArrPadded ![0, 0, 1, 1] ![0, 0, 1, 1] ![0, 0, 0, 0] x v hp hu (ix4 b c i j)
      = halo (v (Shape.Idx.first hu)) (fun p q => x (ix4 b c p q)) i.val j.val := by
  unfold halo
  by_cases hj : 1 ≤ j.val ∧ j.val ≤ 256
  · rw [dif_pos hj]
    by_cases hi : 1 ≤ i.val ∧ i.val ≤ 256
    · rw [dif_pos hi]
      exact pad_apply_of_inside _ _ _ x v hp hu (ix4 b c i j) (ix4 b c (⟨i.val - 1, by omega⟩ : Fin 256) (⟨j.val - 1, by omega⟩ : Fin 256))
        (fun a => match a with
          | ⟨0, _⟩ => by show b.val = 0 + b.val * (0 + 1); omega
          | ⟨1, _⟩ => by show c.val = 0 + c.val * (0 + 1); omega
          | ⟨2, _⟩ => by show i.val = 1 + (i.val - 1) * (0 + 1); omega
          | ⟨3, _⟩ => by show j.val = 1 + (j.val - 1) * (0 + 1); omega)
    · rw [dif_neg hi]
      refine pad_apply_of_not_inside _ _ _ x v hp hu (ix4 b c i j) 2 (fun hh => hi ?_)
      have h1 : 1 ≤ i.val := hh.1
      have h3 : (i.val - 1) / (0 + 1) < 256 := hh.2.2
      omega
  · rw [dif_neg hj]
    refine pad_apply_of_not_inside _ _ _ x v hp hu (ix4 b c i j) 3 (fun hh => hj ?_)
    have h1 : 1 ≤ j.val := hh.1
    have h3 : (j.val - 1) / (0 + 1) < 256 := hh.2.2
    omega

/-- A 256 × 256 window of the padded array at offset `(di, dj)`, read at `(b, c, h, w)`: the padded plane at
    `(di + h, dj + w)`. -/
theorem slice_pad_apply {u : Shape} (x : Arr.Idx → α) (v : u.Idx → α)
    (hp : Arr.Pads (![0, 0, 1, 1] : Fin 4 → Nat) ![0, 0, 1, 1] ![0, 0, 0, 0] ArrPadded) (hu : 0 < u.numel)
    (di dj : Nat) (hdi : di ≤ 2) (hdj : dj ≤ 2) (hs : ArrPadded.Slices ![0, 0, di, dj] Arr)
    (b : Fin 8) (c : Fin 64) (h w : Fin 256) :
    extractStridedSlice Arr ![0, 0, di, dj] (pad ArrPadded ![0, 0, 1, 1] ![0, 0, 1, 1] ![0, 0, 0, 0] x v hp hu) hs (ix4 b c h w)
      = halo (v (Shape.Idx.first hu)) (fun p q => x (ix4 b c p q)) (di + h.val) (dj + w.val) :=
  (extractStridedSlice_apply _ _ hs (ix4 b c h w) (ix4 b c (⟨di + h.val, by omega⟩ : Fin 258) (⟨dj + w.val, by omega⟩ : Fin 258))
    (fun a => match a with
      | ⟨0, _⟩ => by show b.val = 0 + b.val; omega
      | ⟨1, _⟩ => by show c.val = 0 + c.val; omega
      | ⟨2, _⟩ => rfl
      | ⟨3, _⟩ => rfl)).trans
    (pad_apply x v hp hu b c _ _)

end Array

end Cert.PaddedPlane

end
-- ==== Proof.KernelCell.lean ====
/-
  What one grid point of the kernel leaves in its output block, element by element. The body loads a block of
  eight planes, borders it with a padding row above and below and a padding column left and right, takes the nine
  256 × 256 windows of the bordered block at offsets (di, dj), di, dj ≤ 2, and adds the nine distances
  |x − window| in row-major order of the offsets onto zero; the stored value is x + α · that sum, α the plane's
  scale. So element (a, c, h, w) of the block is the result at position (h, w) of plane (a, c) of the loaded block.
-/
import proofs.«153993_j12163347382417_1_alg».proof.Proof.Gen.KernelIdeal.Value
import proofs.«153993_j12163347382417_1_alg».proof.Proof.PaddedPlane

set_option maxRecDepth 16384

noncomputable section

namespace Cert.KernelIdeal.Cell

open Cert.KernelIdeal Cert.KernelIdeal.Gen Idealize.ShloMosaic Idealize.ShloMosaic.TcCoe Idealize.ShloMosaic.ValueIdx
open Cert.PaddedPlane

variable {F : FTy → Type} [FloatOps F]

theorem offsets_zero : (![0, 0, 0, 0] : Fin 4 → Nat) = fun _ => 0 := funext fun a => by fin_cases a <;> rfl

/-- The loaded block with its border of padding value `z`. -/
abbrev bordered (z : F .f32) (P0 : Vec F S1x8x256x256 .f32) : FVec F S1x8x258x258 .f32 :=
  concatenate S1x8x258x258 3 [⟨S1x8x258x257, concatenate S1x8x258x257 3 [⟨S1x8x258x1, broadcast S1x8x258x1 z⟩,
      ⟨S1x8x258x256, concatenate S1x8x258x256 2 [⟨S1x8x257x256, concatenate S1x8x257x256 2 [⟨S1x8x1x256, broadcast S1x8x1x256 z⟩, ⟨S1x8x256x256, P0⟩]
          concatenates_S1x8x1x256_S1x8x256x256_S1x8x257x256_d2⟩,
        ⟨S1x8x1x256, broadcast S1x8x1x256 z⟩] concatenates_S1x8x257x256_S1x8x1x256_S1x8x258x256_d2⟩]
      concatenates_S1x8x258x1_S1x8x258x256_S1x8x258x257_d3⟩,
    ⟨S1x8x258x1, broadcast S1x8x258x1 z⟩] concatenates_S1x8x258x257_S1x8x258x1_S1x8x258x258_d3

/-- The body's sum is the vectors' nine-term sum over the nine windows of the bordered block, onto zero. -/
theorem pay2_eq (P0 : Vec F S1x8x256x256 .f32) :
    k0_pay2 P0 = acc9 FloatOps.absf P0 (broadcast S1x8x256x256 (Scalar.ofBits .f32 0x00000000#32))
      (extractStridedSlice S1x8x256x256 ![0, 0, 0, 0] (bordered (Scalar.sitofp .f32 0#32) P0) slices_S1x8x258x258_o0_0_0_0_S1x8x256x256)
      (extractStridedSlice S1x8x256x256 ![0, 0, 0, 1] (bordered (Scalar.sitofp .f32 0#32) P0) slices_S1x8x258x258_o0_0_0_1_S1x8x256x256)
      (extractStridedSlice S1x8x256x256 ![0, 0, 0, 2] (bordered (Scalar.sitofp .f32 0#32) P0) slices_S1x8x258x258_o0_0_0_2_S1x8x256x256)
      (extractStridedSlice S1x8x256x256 ![0, 0, 1, 0] (bordered (Scalar.sitofp .f32 0#32) P0) slices_S1x8x258x258_o0_0_1_0_S1x8x256x256)
      (extractStridedSlice S1x8x256x256 ![0, 0, 1, 1] (bordered (Scalar.sitofp .f32 0#32) P0) slices_S1x8x258x258_o0_0_1_1_S1x8x256x256)
      (extractStridedSlice S1x8x256x256 ![0, 0, 1, 2] (bordered (Scalar.sitofp .f32 0#32) P0) slices_S1x8x258x258_o0_0_1_2_S1x8x256x256)
      (extractStridedSlice S1x8x256x256 ![0, 0, 2, 0] (bordered (Scalar.sitofp .f32 0#32) P0) slices_S1x8x258x258_o0_0_2_0_S1x8x256x256)
      (extractStridedSlice S1x8x256x256 ![0, 0, 2, 1] (bordered (Scalar.sitofp .f32 0#32) P0) slices_S1x8x258x258_o0_0_2_1_S1x8x256x256)
      (extractStridedSlice S1x8x256x256 ![0, 0, 2, 2] (bordered (Scalar.sitofp .f32 0#32) P0) slices_S1x8x258x258_o0_0_2_2_S1x8x256x256) :=
  rfl

/-- The body's sum at element `(a, c, h, w)`: the nine distances around position `(h, w)` of plane `(a, c)`. -/
theorem pay2_apply (P0 : Vec F S1x8x256x256 .f32) (a : Fin 1) (c : Fin 8) (h w : Fin 256) :
    k0_pay2 P0 (ix4 a c h w)
      = sum9 FloatOps.absf (Scalar.sitofp .f32 0#32) (Scalar.ofBits .f32 0x00000000#32) (fun p q => P0 (ix4 a c p q)) h w := by
  rw [pay2_eq]
  exact acc9_apply FloatOps.absf P0 _ _ _ _ _ _ _ _ _ _ (ix4 a c h w) _ _ (fun p q => P0 (ix4 a c p q)) h w rfl rfl
    (slice_padded_apply (α := F .f32) _ P0 _ _ _ _ 0 0 (by omega) (by omega) _ a c h w)
    (slice_padded_apply (α := F .f32) _ P0 _ _ _ _ 0 1 (by omega) (by omega) _ a c h w)
    (slice_padded_apply (α := F .f32) _ P0 _ _ _ _ 0 2 (by omega) (by omega) _ a c h w)
    (slice_padded_apply (α := F .f32) _ P0 _ _ _ _ 1 0 (by omega) (by omega) _ a c h w)
    (slice_padded_apply (α := F .f32) _ P0 _ _ _ _ 1 1 (by omega) (by omega) _ a c h w)
    (slice_padded_apply (α := F .f32) _ P0 _ _ _ _ 1 2 (by omega) (by omega) _ a c h w)
    (slice_padded_apply (α := F .f32) _ P0 _ _ _ _ 2 0 (by omega) (by omega) _ a c h w)
    (slice_padded_apply (α := F .f32) _ P0 _ _ _ _ 2 1 (by omega) (by omega) _ a c h w)
    (slice_padded_apply (α := F .f32) _ P0 _ _ _ _ 2 2 (by omega) (by omega) _ a c h w)

/-- The block the body leaves, at element `(a, c, h, w)`: the entry plus the plane's scale `x1 (0, c, 0, 0)` times
    its nine distances. -/
theorem block_apply (x0 : Vec F S1x8x256x256 .f32) (x1 : Vec F S1x8x1x1 .f32) (a : Fin 1) (c : Fin 8) (h w : Fin 256) :
    out0_2 x0 x1 (ix4 a c h w)
      = cell FloatOps.absf (Scalar.sitofp .f32 0#32) (Scalar.ofBits .f32 0x00000000#32) (fun p q => x0 (ix4 a c p q))
          (x1 (ix4 (0 : Fin 1) c (0 : Fin 1) (0 : Fin 1))) h w := by
  unfold out0_2
  rw [View.canon_unit_zero offsets_zero]
  simp only [View.ld_unit_zero (S := S1x8x256x256) offsets_zero, View.ld_unit_zero (S := S1x8x1x1) offsets_zero]
  have eb : broadcastTo S1x8x256x256 x1 broadcasts_S1x8x1x1_S1x8x256x256 (ix4 a c h w) = x1 (ix4 (0 : Fin 1) c (0 : Fin 1) (0 : Fin 1)) :=
    broadcastTo_apply x1 _ (ix4 a c h w) (ix4 (0 : Fin 1) c (0 : Fin 1) (0 : Fin 1)) (fun b => match b with
      | ⟨0, _⟩ => by show 0 = (if (1 : Nat) = 1 then 0 else a.val); rw [if_pos rfl]
      | ⟨1, _⟩ => by show c.val = (if (8 : Nat) = 1 then 0 else c.val); rw [if_neg (by decide)]
      | ⟨2, _⟩ => by show 0 = (if (1 : Nat) = 1 then 0 else h.val); rw [if_pos rfl]
      | ⟨3, _⟩ => by show 0 = (if (1 : Nat) = 1 then 0 else w.val); rw [if_pos rfl])
  show FloatOps.addf (x0 (ix4 a c h w)) (FloatOps.mulf (broadcastTo S1x8x256x256 x1 broadcasts_S1x8x1x1_S1x8x256x256 (ix4 a c h w)) (k0_pay2 x0 (ix4 a c h w))) = _
  rw [eb, pay2_apply]
  rfl

/-- The same at any index of the block, its coordinates read off. -/
theorem block_at (x0 : Vec F S1x8x256x256 .f32) (x1 : Vec F S1x8x1x1 .f32) (j : S1x8x256x256.Idx) :
    out0_2 x0 x1 j
      = cell FloatOps.absf (Scalar.sitofp .f32 0#32) (Scalar.ofBits .f32 0x00000000#32) (fun p q => x0 (ix4 (j 0) (j 1) p q))
          (x1 (ix4 (0 : Fin 1) (j 1) (0 : Fin 1) (0 : Fin 1))) (j 2) (j 3) := by
  obtain ⟨a, c, h, w, rfl⟩ : ∃ (a : Fin 1) (c : Fin 8) (h w : Fin 256), j = ix4 a c h w := ⟨j 0, j 1, j 2, j 3, eq_ix4 j⟩
  exact block_apply x0 x1 a c h w

end Cert.KernelIdeal.Cell

end
-- ==== Proof.KernelArray.lean ====
/-
  From blocks to the array. The kernel's grid is 8 × 8: point (bi, ci) loads planes (bi, 8·ci … 8·ci + 7) of x and
  the eight scales α(0, 8·ci … 8·ci + 7), and writes back the same eight planes of the result; the 64 blocks
  tile the array. What a point writes back is, element by element, the result of `KernelCell` on its own planes, and a
  plane's result depends on that plane and its scale only; so the array after the run is ONE function of the two
  arguments — at (b, c, h, w) the result at position (h, w) of plane (b, c) of x, scaled by α(0, c, 0, 0).
-/
import proofs.«153993_j12163347382417_1_alg».proof.Proof.KernelCell

set_option maxRecDepth 16384

noncomputable section

namespace Cert.KernelIdeal.Whole

open Cert.KernelIdeal Cert.KernelIdeal.Gen Idealize.ShloMosaic Idealize.ShloMosaic.TcCoe Idealize.ShloMosaic.ValueIdx Idealize.SL.Sem
open Idealize.ShloMosaic.Pipeline (Dat)
open Cert.PaddedPlane Cert.KernelIdeal.Cell

variable {F : FTy → Type} [FloatOps F]
variable (m : (ℓ : Loc nD τ sig) → Buf (Elt F) ℓ) (ρ : Dev nD → PrngReg)

/-- The array the run leaves on core `c`, as one function of the argument arrays as the region finds them. -/
abbrev result (c : Dev nD) : S8x64x256x256.Idx → Elt F .f32 :=
  stencilArr FloatOps.absf (Scalar.sitofp .f32 0#32) (Scalar.ofBits .f32 0x00000000#32) (V m c main_arg0) (V m c main_arg1)

/-- The printed index maps over the 64 points: x's block and the result's are the same planes, α's block the same
    group of eight channels, and no window moves along a plane. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = 0 ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0 :=
  (by decide +kernel : ∀ t : Fin grid0.N, _)

/-- Every batch entry and every group of eight channels is some point's. -/
theorem idx_onto : ∀ (q0 : Fin 8) (q1 : Fin 8), ∃ t : Fin cfg0.N, win0_2.index t = ![q0.val, q1.val, 0, 0] :=
  (by decide +kernel : ∀ (q0 : Fin 8) (q1 : Fin 8), ∃ t : Fin grid0.N, win0_2.index t = ![q0.val, q1.val, 0, 0])

/-- WHAT POINT `t` WRITES BACK is block `t` of the whole-array function of the arguments. -/
theorem flushed_eq (c : Dev nD) (t : Fin cfg0.N) :
    (dats m 0 c).flushed 2 t = ((cfg0.win 2).blk t).view.read (Elt F) (result m c) := by
  rw [Cert.KernelIdeal.Value.flushed2]
  obtain ⟨e00, e01, e02, e03, e10, e11, e12, e13, e22, e23⟩ := idx_facts t
  funext j
  show out0_2 (iblk m c 0 t) (iblk m c 1 t) j = result m c (((cfg0.win 2).blk t).view.emb j)
  refine (block_at _ _ j).trans ?_
  have hj0 : (j 0).val < 1 := (j 0).isLt
  have hj1 : (j 1).val < 8 := (j 1).isLt
  have hj2 : (j 2).val < 256 := (j 2).isLt
  have hj3 : (j 3).val < 256 := (j 3).isLt
  refine cell_congr _ _ _ ?_ ?_ ?_ ?_
  · -- the point's planes of x are the array's planes under the block
    funext p q
    show V m c main_arg0 (((cfg0.win 0).blk t).view.emb (ix4 (j 0) (j 1) p q))
      = V m c main_arg0 (ix4 ((((cfg0.win 2).blk t).view.emb j) 0) ((((cfg0.win 2).blk t).view.emb j) 1) p q)
    refine congrArg _ (funext fun a => Fin.ext ?_)
    match a with
    | ⟨0, _⟩ => show win0_0.index t (0 : Fin 4) * 1 + 1 * (j 0).val = win0_2.index t (0 : Fin 4) * 1 + 1 * (j 0).val; omega
    | ⟨1, _⟩ => show win0_0.index t (1 : Fin 4) * 8 + 1 * (j 1).val = win0_2.index t (1 : Fin 4) * 8 + 1 * (j 1).val; omega
    | ⟨2, _⟩ => show win0_0.index t (2 : Fin 4) * 256 + 1 * p.val = p.val; omega
    | ⟨3, _⟩ => show win0_0.index t (3 : Fin 4) * 256 + 1 * q.val = q.val; omega
  · -- and its scales the array's
    show V m c main_arg1 (((cfg0.win 1).blk t).view.emb (ix4 (0 : Fin 1) (j 1) (0 : Fin 1) (0 : Fin 1)))
      = V m c main_arg1 (ix4 (0 : Fin 1) ((((cfg0.win 2).blk t).view.emb j) 1) (0 : Fin 1) (0 : Fin 1))
    refine congrArg _ (funext fun a => Fin.ext ?_)
    match a with
    | ⟨0, _⟩ => show win0_1.index t (0 : Fin 4) * 1 + 1 * 0 = 0; omega
    | ⟨1, _⟩ => show win0_1.index t (1 : Fin 4) * 8 + 1 * (j 1).val = win0_2.index t (1 : Fin 4) * 8 + 1 * (j 1).val; omega
    | ⟨2, _⟩ => show win0_1.index t (2 : Fin 4) * 1 + 1 * 0 = 0; omega
    | ⟨3, _⟩ => show win0_1.index t (3 : Fin 4) * 1 + 1 * 0 = 0; omega
  · exact Fin.ext (show (j 2).val = win0_2.index t (2 : Fin 4) * 256 + 1 * (j 2).val by omega)
  · exact Fin.ext (show (j 3).val = win0_2.index t (3 : Fin 4) * 256 + 1 * (j 3).val by omega)

/-- An index of the array is in point `t`'s block iff each coordinate is in the block's range on its axis. -/
theorem mem_blk (t : Fin cfg0.N) (i : S8x64x256x256.Idx) :
    i ∈ ((cfg0.win 2).blk t).view.set ↔ ∀ a : Fin 4, win0_2.index t a * S1x8x256x256.size a ≤ (i a).val ∧ (i a).val < win0_2.index t a * S1x8x256x256.size a + S1x8x256x256.size a := by
  show i ∈ ((View.whole main_v0).slice (win0_2.rect t)).set ↔ _
  rw [View.set_slice_whole, Rect.mem_set_unit]
  exact Iff.rfl

/-- The blocks cover the array: index `(b, c, h, w)` is in the block of the point with batch entry `b` and channel
    group `c / 8`. -/
theorem cover (i : S8x64x256x256.Idx) : ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 256 := (i 2).isLt
  have hi3 : (i 3).val < 256 := (i 3).isLt
  obtain ⟨t, ht⟩ := idx_onto ⟨(i 0).val, by omega⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- THE ARRAY after the run is the whole-array function of the arguments. -/
theorem final (c : Dev nD) : (dats m 0 c).arrAt 2 cfg0.N = result m c :=
  (dats m 0 c).arrAt_eq_of_cover 2 (result m c) (fun t _ => flushed_eq m c t) cover

/-- The kernel's run: it terminates with the result array at that function of the arguments as launched, the
    arguments unchanged. -/
theorem run : θ_run defs (onTc (τ := τ) (main (F := F))) ⟨m, fun _ => 0, ρ⟩ fun r => ∀ c : Dev nD,
      r.2.mem ((c : Thread nD τ).loc main_v0)
        = stencilArr FloatOps.absf (Scalar.sitofp .f32 0#32) (Scalar.ofBits .f32 0x00000000#32)
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.RefCell.lean ====
/-
  What the reference computes, element by element. It pads the whole array by one entry of zero on each side of
  its two last axes, takes the nine 256 × 256 windows of the padded array at offsets (di, dj), di, dj ≤ 2, adds the
  nine distances |x − window| in row-major order of the offsets onto zero, and returns x + α · that sum, α
  broadcast along its second axis. So element (b, c, h, w) of the result is the result at position (h, w) of plane
  (b, c) of x, scaled by α(0, c, 0, 0): the whole-array function `stencilArr`, with the host's absolute value.
-/
import proofs.«153993_j12163347382417_1_alg».proof.Proof.Gen.ReferenceIdeal.Read
import proofs.«153993_j12163347382417_1_alg».proof.Proof.PaddedPlane

set_option maxRecDepth 16384

noncomputable section

namespace Cert.ReferenceIdeal.Cell

open Cert.ReferenceIdeal Cert.ReferenceIdeal.Gen Cert.ReferenceIdeal.Read Idealize.ShloMosaic Idealize.ShloMosaic.TcCoe
open Idealize.ShloMosaic.ValueIdx Cert.PaddedPlane

variable {F : FTy → Type} [FloatOps F]

/-- The reference's sum is the vectors' nine-term sum over the nine windows of the padded array, onto zero. -/
theorem sum_eq (x0 : (⟨S8x64x256x256, .f32⟩ : BufTy).Contents (Elt F)) :
    val_main_v37 (F := F) x0 = acc9 FloatOps.hostAbsf x0 (val_main_v1 (F := F))
      (val_main_v2 (F := F) x0) (val_main_v6 (F := F) x0) (val_main_v10 (F := F) x0)
      (val_main_v14 (F := F) x0) (val_main_v18 (F := F) x0) (val_main_v22 (F := F) x0)
      (val_main_v26 (F := F) x0) (val_main_v30 (F := F) x0) (val_main_v34 (F := F) x0) :=
  rfl

/-- The window at offset `(di, dj)` of the padded array, at element `(b, c, h, w)`: the padded plane `(b, c)` at
    `(di + h, dj + w)`, the padding the integer zero converted. -/
theorem window_apply (x0 : (⟨S8x64x256x256, .f32⟩ : BufTy).Contents (Elt F)) (di dj : Nat) (hdi : di ≤ 2) (hdj : dj ≤ 2)
    (hs : S8x64x258x258.Slices ![0, 0, di, dj] S8x64x256x256) (b : Fin 8) (c : Fin 64) (h w : Fin 256) :
    extractStridedSlice S8x64x256x256 ![0, 0, di, dj] (val_main_v0 (F := F) x0) hs (ix4 b c h w)
      = halo (FloatOps.sitofp (F := F) .f32 (0#32 : BitVec 32)) (fun p q => x0 (ix4 b c p q)) (di + h.val) (dj + w.val) :=
  slice_pad_apply (α := F .f32) x0 (val_main_call0_v0 (F := F)) pads_S8x64x256x256_S8x64x258x258_000_000_110_110 h_S_ di dj hdi hdj hs b c h w

/-- The reference's result at element `(b, c, h, w)`. -/
theorem ref_apply (x0 : (⟨S8x64x256x256, .f32⟩ : BufTy).Contents (Elt F)) (x1 : (⟨S1x64x1x1, .f32⟩ : BufTy).Contents (Elt F))
    (b : Fin 8) (c : Fin 64) (h w : Fin 256) :
    val_main_v40 (F := F) x0 x1 (ix4 b c h w)
      = cell FloatOps.hostAbsf (FloatOps.sitofp (F := F) .f32 (0#32 : BitVec 32)) (FloatOps.ofBits .f32 0x00000000#32)
          (fun p q => x0 (ix4 b c p q)) (x1 (ix4 (0 : Fin 1) c (0 : Fin 1) (0 : Fin 1))) h w := by
  have e38 : val_main_v38 (F := F) x1 (ix4 b c h w) = x1 (ix4 (0 : Fin 1) c (0 : Fin 1) (0 : Fin 1)) :=
    (val_main_v38_apply x1 _).trans (congrArg x1 (funext fun a => match a with
      | ⟨0, _⟩ => rfl
      | ⟨1, _⟩ => rfl
      | ⟨2, _⟩ => rfl
      | ⟨3, _⟩ => rfl))
  have e1 : val_main_v1 (F := F) (ix4 b c h w) = FloatOps.ofBits .f32 0x00000000#32 :=
    (val_main_v1_apply (F := F) _).trans (val_main_cst_apply _)
  have e37 : val_main_v37 (F := F) x0 (ix4 b c h w)
      = sum9 FloatOps.hostAbsf (FloatOps.sitofp (F := F) .f32 (0#32 : BitVec 32)) (FloatOps.ofBits .f32 0x00000000#32) (fun p q => x0 (ix4 b c p q)) h w := by
    rw [sum_eq]
    exact acc9_apply FloatOps.hostAbsf x0 _ _ _ _ _ _ _ _ _ _ (ix4 b c h w) _ _ (fun p q => x0 (ix4 b c p q)) h w rfl e1
      (window_apply x0 0 0 (by omega) (by omega) _ b c h w)
      (window_apply x0 0 1 (by omega) (by omega) _ b c h w)
      (window_apply x0 0 2 (by omega) (by omega) _ b c h w)
      (window_apply x0 1 0 (by omega) (by omega) _ b c h w)
      (window_apply x0 1 1 (by omega) (by omega) _ b c h w)
      (window_apply x0 1 2 (by omega) (by omega) _ b c h w)
      (window_apply x0 2 0 (by omega) (by omega) _ b c h w)
      (window_apply x0 2 1 (by omega) (by omega) _ b c h w)
      (window_apply x0 2 2 (by omega) (by omega) _ b c h w)
  show FloatOps.addf (x0 (ix4 b c h w)) (FloatOps.mulf (val_main_v38 (F := F) x1 (ix4 b c h w)) (val_main_v37 (F := F) x0 (ix4 b c h w))) = _
  rw [e38, e37]
  rfl

/-- THE REFERENCE'S RESULT is the whole-array function of its two arguments, with the host's absolute value. -/
theorem ref_eq (x0 : (⟨S8x64x256x256, .f32⟩ : BufTy).Contents (Elt F)) (x1 : (⟨S1x64x1x1, .f32⟩ : BufTy).Contents (Elt F)) :
    val_main_v40 (F := F) x0 x1
      = stencilArr FloatOps.hostAbsf (FloatOps.sitofp (F := F) .f32 (0#32 : BitVec 32)) (FloatOps.ofBits .f32 0x00000000#32) x0 x1 := by
  funext i
  obtain ⟨b, c, h, w, rfl⟩ : ∃ (b : Fin 8) (c : Fin 64) (h w : Fin 256), i = ix4 b c h w := ⟨i 0, i 1, i 2, i 3, eq_ix4 i⟩
  exact ref_apply x0 x1 b c h w

end Cert.ReferenceIdeal.Cell

end
-- ==== Proof.lean ====
/-
  The kernel and its reference compute one function. For x : f32[8, 64, 256, 256] and α : f32[1, 64, 1, 1] both return,
  at (b, c, h, w),

      x(b, c, h, w) + α(0, c, 0, 0) · ((((0 + |x − P(h, w)|) + |x − P(h, w + 1)|) + … ) + |x − P(h + 2, w + 2)|),

  x short for x(b, c, h, w) and P the plane (b, c) of x with a border of one zero on every side: the nine distances
  between an entry and the 3 × 3 window of the zero-padded plane around it, added in row-major order of the window.
  The kernel works plane by plane — a grid of 8 × 8 points, each on eight whole planes, the border made by joining a
  zero row above and below and a zero column left and right of the loaded block — and the reference on the whole
  array, padded in one step. Neither the order of the nine terms nor any operation differs, so no law of the
  extended reals is used and the precondition is never opened: at the ideal instance the host's absolute value is the
  kernel's, and the integer zero converted on the scalar unit is the integer zero converted on the host.
  The frames are the generated ones; the kernel's run is read block by block (`KernelCell`, `KernelArray`), the
  reference's operation by operation (`RefCell`), both as the whole-array function `stencilArr` of `PaddedPlane`.
-/
import proofs.«153993_j12163347382417_1_alg».proof.Defs
import proofs.«153993_j12163347382417_1_alg».proof.Proof.Gen.Kernel
import proofs.«153993_j12163347382417_1_alg».proof.Proof.Gen.Kernel.Frame
import proofs.«153993_j12163347382417_1_alg».proof.Proof.Gen.KernelIdeal
import proofs.«153993_j12163347382417_1_alg».proof.Proof.Gen.KernelIdeal.Frame
import proofs.«153993_j12163347382417_1_alg».proof.Proof.Gen.KernelIdeal.Value
import proofs.«153993_j12163347382417_1_alg».proof.Proof.Gen.ReferenceIdeal
import proofs.«153993_j12163347382417_1_alg».proof.Proof.Gen.ReferenceIdeal.Run
import proofs.«153993_j12163347382417_1_alg».proof.Proof.Gen.ReferenceIdeal.Read
import proofs.«153993_j12163347382417_1_alg».proof.Proof.Gen.Pre_finite_inputs
import proofs.«153993_j12163347382417_1_alg».proof.Proof.KernelArray
import proofs.«153993_j12163347382417_1_alg».proof.Proof.RefCell
import Idealize.ShloMosaic.Adequacy
import Idealize.ShloMosaic.Init

noncomputable section

namespace Cert.Proof

open Idealize.ShloMosaic Idealize.ShloMosaic.TcCoe Idealize.SL.Sem Cert.PaddedPlane

/-- The word-level kernel runs, faults nowhere and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- And the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the reference's whole-array function is the kernel's: the host's absolute value is the
    kernel's, and zero converted from an integer is one number on either unit. -/
theorem same_function (x0 : (⟨4, ![8, 64, 256, 256]⟩ : Shape).Idx → Ideal .f32) (x1 : (⟨4, ![1, 64, 1, 1]⟩ : Shape).Idx → Ideal .f32) :
    stencilArr (F := Ideal) FloatOps.hostAbsf (FloatOps.sitofp (F := Ideal) .f32 (0#32 : BitVec 32)) (FloatOps.ofBits .f32 0x00000000#32) x0 x1
      = stencilArr (F := Ideal) FloatOps.absf (Scalar.sitofp .f32 (0#32 : BitVec 32)) (Scalar.ofBits .f32 0x00000000#32) x0 x1 :=
  rfl

/-- From memories agreeing on x and α both programs end with the same array: the whole-array function of x and α. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.Cell.ref_eq, (hagree c).1, (hagree c).2]
  exact same_function _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
